-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 89
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S100000, .f32⟩
  | .hbm, ⟨11, _⟩ => ⟨S800000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S100000, .f32⟩
  | .hbm, ⟨21, _⟩ => ⟨S800000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S100000x128, .f32⟩
  | .hbm, ⟨43, _⟩ => ⟨S800000x1, .i32⟩
  | .hbm, ⟨44, _⟩ => ⟨S100000x128, .f32⟩
  | .hbm, ⟨45, _⟩ => ⟨S100000x1, .f32⟩
  | .hbm, ⟨46, _⟩ => ⟨S1x128, .f32⟩
  | .hbm, ⟨47, _⟩ => ⟨S100000x128, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S100000, .f32⟩
  | .hbm, ⟨52, _⟩ => ⟨S800000x1, .i32⟩
  | .hbm, ⟨53, _⟩ => ⟨S100000, .f32⟩
  | .hbm, ⟨54, _⟩ => ⟨S_, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S100000, .f32⟩
  | .hbm, ⟨62, _⟩ => ⟨S800000x1, .i32⟩
  | .hbm, ⟨63, _⟩ => ⟨S100000, .f32⟩
  | .hbm, ⟨64, _⟩ => ⟨S_, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S100000x128, .f32⟩
  | .hbm, ⟨84, _⟩ => ⟨S800000x1, .i32⟩
  | .hbm, ⟨85, _⟩ => ⟨S100000x128, .f32⟩
  | .hbm, ⟨86, _⟩ => ⟨S100000x1, .f32⟩
  | .hbm, ⟨87, _⟩ => ⟨S1x128, .f32⟩
  | .hbm, ⟨88, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_call2_v0 : Ref sig .tc := ⟨.hbm, 55, rfl⟩
abbrev main_call2_v1 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_call3_v0 : Ref sig .tc := ⟨.hbm, 65, rfl⟩
abbrev main_call3_v1 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_13 : Ref sig .tc := ⟨.hbm, 73, rfl⟩
abbrev main_v43 : Ref sig .tc := ⟨.hbm, 74, rfl⟩
abbrev main_v44 : Ref sig .tc := ⟨.hbm, 75, rfl⟩
abbrev main_c_14 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S100000, .f32⟩
  | .hbm, ⟨11, _⟩ => ⟨S800000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S100000, .f32⟩
  | .hbm, ⟨21, _⟩ => ⟨S800000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S100000x128, .f32⟩
  | .hbm, ⟨43, _⟩ => ⟨S800000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S100000, .f32⟩
  | .hbm, ⟨59, _⟩ => ⟨S800000x1, .i32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S100000, .f32⟩
  | .hbm, ⟨69, _⟩ => ⟨S800000x1, .i32⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S100000x128, .f32⟩
  | .hbm, ⟨91, _⟩ => ⟨S800000x1, .i32⟩
  | .hbm, ⟨92, _⟩ => ⟨S100000x128, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_13 : Ref sig .tc := ⟨.hbm, 80, rfl⟩
abbrev main_v48 : Ref sig .tc := ⟨.hbm, 81, rfl⟩
abbrev main_v49 : Ref sig .tc := ⟨.hbm, 82, rfl⟩
abbrev main_c_14 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_15 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call5_cst : Ref sig .tc := ⟨.hbm, 100, rfl⟩
abbrev main_call5_v0 : Ref sig .tc := ⟨.hbm, 101, rfl⟩
abbrev main_v65 : Ref sig .tc := ⟨.hbm, 102, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibBroadcastInDim.lean ====
/-
  `broadcast_in_dim` between vectors, columns, rows and matrices, read at an index (any sizes, any element type).

  * an `[a]` vector placed along axis 0 of `[a, 1]`: entry `(i, u)` is the vector's entry `i`;
  * an `[a, 1]` column spread to `[a, b]`: entry `(i, j)` is the column's entry `(i, 0)`;
  * a `[b]` vector placed along axis 1 of `[1, b]`: entry `(u, j)` is the vector's entry `j`;
  * a `[1, b]` row spread to `[a, b]`: entry `(i, j)` is the row's entry `(0, j)`;
  * a scalar spread to any shape: every entry is the scalar.
  In each case the operand index keeps the coordinates on the axes the operand has and is zero on a unit axis
  (an axis of extent one has only the coordinate zero, so the two readings of such an axis agree).
-/
import Idealize.ShloMosaic.Lib.ValueIdx
import Idealize.ShloMosaic.Lib.Pipeline.Value

namespace Cert.LibBroadcastInDim

open Idealize.ShloMosaic Idealize.ShloMosaic.ValueIdx

variable {α : Type}

/-- An `[a]` vector placed along axis 0 of `[a, 1]` reads, at `(i, u)`, the vector at `i`. -/
theorem vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column spread to `[a, b]` reads, at `(i, j)`, the column at `(i, 0)`. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` vector placed along axis 1 of `[1, b]` reads, at `(u, j)`, the vector at `j`. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A `[1, b]` row spread to `[a, b]` reads, at `(i, j)`, the row at `(0, j)`. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread to any shape reads the scalar at every index. -/
theorem scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply _ h x j k fun ax => ax.elim0

end Cert.LibBroadcastInDim
-- ==== Proof.Spec.lean ====
/-
  One graph-convolution layer, as arrays over the extended reals.

  With `N = 100000` nodes, `E = 800000` edges and `D = 128` features:
  * `invSqrtDeg idx` is, per node, `rsqrt (max 1 (the number of edges whose entry in idx is the node))`;
  * `aggregate x src dst` scales each row of `x` by `invSqrtDeg src`, gathers one scaled row per edge at the edge's
    (wrapped) source and adds it into the row of the edge's destination;
  * a layer then maps the aggregate `a`, a per-node scale `nd`, a `D × D` weight `W` and a bias `b` to
    `max (∑ k, (a (p, k) · nd p) · W (k, q) + b q) 0` at `(p, q)`.
  The first two are carried as whole-array functions that are never opened: both programs apply the same one to the
  same arrays. The layer is written twice: as the host operations a whole-array program applies (`refLayer`), and as
  the index-by-index function a blockwise program fills in (`layerK`, over the scale as an `N × 1` column and the bias
  as a `1 × D` row); `refLayer_eq` says the two agree.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«164779_j26809185861707_1_alg».proof.Proof.LibPlainDot
import proofs.«164779_j26809185861707_1_alg».proof.Proof.LibColumn
import proofs.«164779_j26809185861707_1_alg».proof.Proof.LibBroadcastInDim

noncomputable section

namespace Cert.Gcn

open Idealize.ShloMosaic Idealize.ShloMosaic.ValueIdx
open scoped BigOperators

/-! ## Shapes, and the side conditions of the operations over them -/

abbrev S0 : Shape := ⟨0, ![]⟩
abbrev SN : Shape := ⟨1, ![100000]⟩
abbrev SE : Shape := ⟨1, ![800000]⟩
abbrev SD : Shape := ⟨1, ![128]⟩
abbrev SNx1 : Shape := ⟨2, ![100000, 1]⟩
abbrev SEx1 : Shape := ⟨2, ![800000, 1]⟩
abbrev S1xD : Shape := ⟨2, ![1, 128]⟩
abbrev SNxD : Shape := ⟨2, ![100000, 128]⟩
abbrev SExD : Shape := ⟨2, ![800000, 128]⟩
abbrev SDxD : Shape := ⟨2, ![128, 128]⟩

theorem b_0_E : S0.BroadcastsInDim SE (![] : Fin 0 → Fin SE.rank) := by decide
theorem b_0_N : S0.BroadcastsInDim SN (![] : Fin 0 → Fin SN.rank) := by decide
theorem b_0_NxD : S0.BroadcastsInDim SNxD (![] : Fin 0 → Fin SNxD.rank) := by decide
theorem b_E_Ex1 : SE.BroadcastsInDim SEx1 (![0] : Fin 1 → Fin SEx1.rank) := by decide
theorem b_N_Nx1 : SN.BroadcastsInDim SNx1 (![0] : Fin 1 → Fin SNx1.rank) := by decide
theorem b_Nx1_NxD : SNx1.BroadcastsInDim SNxD (![0, 1] : Fin 2 → Fin SNxD.rank) := by decide
theorem b_D_1xD : SD.BroadcastsInDim S1xD (![1] : Fin 1 → Fin S1xD.rank) := by decide
theorem b_1xD_NxD : S1xD.BroadcastsInDim SNxD (![0, 1] : Fin 2 → Fin SNxD.rank) := by decide
theorem c_N_Nx1 : SN.ShapeCasts SNx1 := by decide
theorem c_D_1xD : SD.ShapeCasts S1xD := by decide

/-- Scatter of one number per edge into a per-node vector. -/
def scNode : ScatterDims SN SEx1 SE where
  updateWindowDims := []
  insertedWindowDims := [0]
  scatterDimsToOperandDims := [0]
  indexVectorDim := 1
  wf := by decide

/-- Scatter of one row per edge into a per-node matrix. -/
def scRows : ScatterDims SNxD SEx1 SExD where
  updateWindowDims := [1]
  insertedWindowDims := [0]
  scatterDimsToOperandDims := [0]
  indexVectorDim := 1
  wf := by decide

/-- Gather of one row per edge out of a per-node matrix. -/
def gRows : GatherDims SNxD SEx1 SExD where
  offsetDims := [1]
  collapsedSliceDims := [0]
  operandBatchingDims := []
  startIndicesBatchingDims := []
  startIndexMap := [0]
  indexVectorDim := 1
  sliceSizes := ![1, 128]
  wf := by decide

/-- Rows by columns over all nodes: `[N, D] × [D, D]`. -/
def dotN : DotDims SNxD SDxD SNxD where
  lhsContracting := [1]
  rhsContracting := [0]
  lhsNonContracting := [0]
  rhsNonContracting := [1]
  lhsBatch := []
  rhsBatch := []
  wf := by decide

/-! ## The shared gather and scatter side, as whole-array functions -/

/-- Per node, `rsqrt (max 1 (number of edges naming the node in idx))`; at any float values, since it is never opened. -/
def invSqrtDeg {F : FTy → Type} [FloatOps F] (idx : IVec SE 32) : FVec F SN .f32 :=
  Host.rsqrt (F := F) (maximumf (broadcastInDim SN ![] b_0_N (id (constant (F := F) S0 .f32 0x3F800000#32)))
    (Host.scatterAdd (F := F) scNode (broadcastInDim SN ![] b_0_N (constant (F := F) S0 .f32 0x00000000#32))
      (broadcastInDim SEx1 ![0] b_E_Ex1 idx) (broadcastInDim SE ![] b_0_E (constant (F := F) S0 .f32 0x3F800000#32))))

/-- Rows of `x` scaled by `invSqrtDeg src`, gathered per edge at its wrapped source, added into its destination's row; at any
    float values, since it is never opened. -/
def aggregate {F : FTy → Type} [FloatOps F] (x : FVec F SNxD .f32) (src dst : IVec SE 32) :
    FVec F SNxD .f32 :=
  Host.scatterAdd (F := F) scRows (broadcastInDim SNxD ![] b_0_NxD (constant (F := F) S0 .f32 0x00000000#32))
    (broadcastInDim SEx1 ![0] b_E_Ex1 dst)
    (Host.gather gRows
      (mulf x (broadcastInDim SNxD ![0, 1] b_Nx1_NxD (broadcastInDim SNx1 ![0] b_N_Nx1 (invSqrtDeg (F := F) src))))
      (broadcastInDim SEx1 ![0] b_E_Ex1
        (select (cmpi .slt src (broadcastInDim SE ![] b_0_E (constantI S0 32 0#32)))
          (addi src (broadcastInDim SE ![] b_0_E (constantI S0 32 100000#32))) src)))

/-! ## The layer -/

/-- The layer as a whole-array program applies it: scale the rows, multiply by the weight, add the bias, clamp at zero. -/
def refLayer (a : FVec Ideal SNxD .f32) (nd : FVec Ideal SN .f32)
    (W : FVec Ideal SDxD .f32) (b : FVec Ideal SD .f32) :
    FVec Ideal SNxD .f32 :=
  maximumf
    (addf (Host.dotGeneral (F := Ideal) dotN none
        (mulf a (broadcastInDim SNxD ![0, 1] b_Nx1_NxD (broadcastInDim SNx1 ![0] b_N_Nx1 nd))) W)
      (broadcastInDim SNxD ![0, 1] b_1xD_NxD (broadcastInDim S1xD ![1] b_D_1xD b)))
    (broadcastInDim SNxD ![] b_0_NxD (constant (F := Ideal) S0 .f32 0x00000000#32))

/-- The layer at row `p` and column `q`, over the scale as a column and the bias as a row. -/
def layerAt (a : FVec Ideal SNxD .f32) (ndcol : FVec Ideal SNx1 .f32) (W : FVec Ideal SDxD .f32) (brow : FVec Ideal S1xD .f32)
    (p : Fin 100000) (q : Fin 128) : EReal :=
  max (∑ k : Fin 128, (a (ix2 p k) * ndcol (ix2 p (0 : Fin 1))) * W (ix2 k q) + brow (ix2 (0 : Fin 1) q))
    (Ideal.ofBits .f32 0x00000000#32)

/-- The layer as one array, index by index. -/
def layerK (a : FVec Ideal SNxD .f32) (ndcol : FVec Ideal SNx1 .f32) (W : FVec Ideal SDxD .f32) (brow : FVec Ideal S1xD .f32) :
    FVec Ideal SNxD .f32 :=
  fun i => layerAt a ndcol W brow (i 0) (i 1)

theorem layerK_apply (a : FVec Ideal SNxD .f32) (ndcol : FVec Ideal SNx1 .f32) (W : FVec Ideal SDxD .f32)
    (brow : FVec Ideal S1xD .f32) (p : Fin 100000) (q : Fin 128) :
    layerK a ndcol W brow (ix2 p q) = layerAt a ndcol W brow p q := rfl

/-- The whole-array layer is the index-by-index one, the scale cast to a column and the bias to a row: the host product
    at `(p, q)` is the sum over `k` of its operands at `(p, k)` and `(k, q)`, the spread column reads the scale at `p`,
    the spread row the bias at `q`. -/
theorem refLayer_eq (a : FVec Ideal SNxD .f32) (nd : FVec Ideal SN .f32)
    (W : FVec Ideal SDxD .f32) (b : FVec Ideal SD .f32)
    (h1 : SN.ShapeCasts SNx1) (h2 : SD.ShapeCasts S1xD) :
    refLayer a nd W b = layerK a (shapeCast SNx1 nd h1) W (shapeCast S1xD b h2) := by
  funext j
  obtain ⟨p, q, rfl⟩ : ∃ (p : Fin 100000) (q : Fin 128), j = ix2 p q := ⟨j 0, j 1, eq_ix2 j⟩
  rw [layerK_apply]
  unfold refLayer layerAt
  rw [maximumf_apply, addf_apply]
  simp only [Host.dotGeneral]
  rw [Cert.LibPlainDot.dotGeneral_apply dotN rfl rfl rfl rfl rfl rfl,
    Cert.LibBroadcastInDim.row_mat_apply, Cert.LibBroadcastInDim.vec_row_apply,
    Cert.LibBroadcastInDim.scalar_apply _ _ _ ix0, constant_apply,
    Cert.LibColumn.shapeCast_a_a1_apply, shapeCast_a_1a_apply]
  refine congrArg (fun s => max (s + b (ix1 q)) (Ideal.ofBits .f32 0x00000000#32)) (Finset.sum_congr rfl fun k _ => ?_)
  rw [mulf_apply, Cert.LibBroadcastInDim.col_mat_apply, Cert.LibBroadcastInDim.vec_col_apply]

/-- Two layers: the second aggregates the first layer's output over the same edges. -/
def twoLayers (x : FVec Ideal SNxD .f32) (src dst : IVec SE 32) (W1 : FVec Ideal SDxD .f32) (b1 : FVec Ideal SD .f32)
    (W2 : FVec Ideal SDxD .f32) (b2 : FVec Ideal SD .f32) : FVec Ideal SNxD .f32 :=
  refLayer (aggregate (refLayer (aggregate x src dst) (invSqrtDeg dst) W1 b1) src dst) (invSqrtDeg dst) W2 b2

end Cert.Gcn

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.Pay0.lean ====
/-
  What one grid point of the dense kernel of region 0 stores, read at an index: the block of the layer it covers.
-/
import proofs.«164779_j26809185861707_1_alg».proof.Proof.Gen.KernelIdeal.Skeleton
import proofs.«164779_j26809185861707_1_alg».proof.Proof.Spec
import proofs.«164779_j26809185861707_1_alg».proof.Proof.LibDotFormats
import proofs.«164779_j26809185861707_1_alg».proof.Proof.LibColumn
import Idealize.ShloMosaic.Lib.ValueLayout

noncomputable section

namespace Cert.KernelIdeal.Pay0

open Cert.KernelIdeal Cert.KernelIdeal.Gen Idealize.ShloMosaic Idealize.ShloMosaic.ValueIdx
open scoped BigOperators

/-- Region 0's stored block at `(p, q)`: the bf16 truncations are the identity on the extended reals, the block product
    into the zero accumulator is the sum over `k` of its operands at `(p, k)` and `(k, q)`, the spread column reads the
    scale at `(p, 0)` and the spread row the bias at `(0, q)`. Stated against the layer at a global row `P` and column
    `Q`, given that the four blocks read the four arrays there. -/
theorem pay0_at (a : FVec Ideal Cert.Gcn.SNxD .f32) (ndcol : FVec Ideal Cert.Gcn.SNx1 .f32) (W : FVec Ideal Cert.Gcn.SDxD .f32)
    (brow : FVec Ideal Cert.Gcn.S1xD .f32)
    (x0 : Vec Ideal S5000x128 .f32) (x1 : Vec Ideal S5000x1 .f32) (x2 : Vec Ideal S128x128 .f32) (x3 : Vec Ideal S1x128 .f32)
    (p : Fin 5000) (q : Fin 128) (P : Fin 100000) (Q : Fin 128)
    (h0 : ∀ k : Fin 128, x0 (ix2 p k) = a (ix2 P k)) (h1 : x1 (ix2 p (0 : Fin 1)) = ndcol (ix2 P (0 : Fin 1)))
    (h2 : ∀ k : Fin 128, x2 (ix2 k q) = W (ix2 k Q)) (h3 : x3 (ix2 (0 : Fin 1) q) = brow (ix2 (0 : Fin 1) Q)) :
    k0_pay1 (F := Ideal) x0 x1 x2 x3 (ix2 p q) = Cert.Gcn.layerAt a ndcol W brow P Q := by
  unfold k0_pay1 Cert.Gcn.layerAt
  simp only [matmul, shapeCast_self]
  rw [maximumf_apply, addf_apply, broadcast_apply,
    Cert.LibDotFormats.matmul_cols_zero_apply dot_S5000x128_S128x128_S5000x128_1_0_0_1_n_n rfl rfl rfl rfl rfl rfl,
    broadcastTo_1b_ab_apply, h3]
  refine congrArg (fun s => max (s + brow (ix2 (0 : Fin 1) Q)) (Ideal.ofBits .f32 0x00000000#32)) (Finset.sum_congr rfl fun k _ => ?_)
  rw [truncf_apply, truncf_apply, mulf_apply, Cert.LibColumn.broadcastTo_a1_ab_apply, h0 k, h1, h2 k]

end Cert.KernelIdeal.Pay0

end
-- ==== Proof.Blocks0.lean ====
/-
  Region 0's output array after its pipeline, for whatever contents the region is entered at: the layer of its four
  operand arrays. Each of the twenty grid points writes back rows `5000·t … 5000·t + 4999`, all 128 columns; its stored
  block is the layer there because the row block of the aggregate and of the scale column it loaded are those same rows,
  and the weight and bias blocks are the whole arrays. The twenty blocks cover the array.
-/
import proofs.«164779_j26809185861707_1_alg».proof.Proof.Gen.KernelIdeal.Frame
import proofs.«164779_j26809185861707_1_alg».proof.Proof.Pay0

set_option maxRecDepth 16384

noncomputable section

namespace Cert.KernelIdeal.Blocks0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregate's, the scale's and the output's row block is the point itself, every
    column block is the one there is, and the weight and the bias are fetched whole. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 19 :=
  (by decide +kernel : ∀ t : Fin grid0.N, _)

/-- Every row block is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-- What point `t` writes back is block `t` of the layer of the region's operand arrays. -/
theorem flushed_eq (c : Dev nD) (t : Fin cfg0.N) :
    (dat0 V c).flushed 4 t = ((cfg0.win 4).blk t).view.read (Elt Ideal)
      (Cert.Gcn.layerK (V c main_v24) (V c main_v25) (V c main_arg3) (V c main_v26)) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  obtain ⟨e0, e1, e2, e3, e4, e5, e6, e7, e8, e9⟩ := idx_facts t
  funext j
  revert j
  intro (j : S5000x128.Idx)
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (ix2 p q)
    = Cert.Gcn.layerAt (V c main_v24) (V c main_v25) (V c main_arg3) (V c main_v26)
        ((((cfg0.win 4).blk t).view.emb (ix2 p q)) 0) ((((cfg0.win 4).blk t).view.emb (ix2 p q)) 1)
  refine Pay0.pay0_at (V c main_v24) (V c main_v25) (V c main_arg3) (V c main_v26)
    (iblk0 V c 0 t) (iblk0 V c 1 t) (iblk0 V c 2 t) (iblk0 V c 3 t) p q
    ((((cfg0.win 4).blk t).view.emb (ix2 p q)) 0) ((((cfg0.win 4).blk t).view.emb (ix2 p q)) 1) ?_ ?_ ?_ ?_
  · intro k
    show V c main_v24 (((cfg0.win 0).blk t).view.emb (ix2 p k)) = V c main_v24 (ix2 ((((cfg0.win 4).blk t).view.emb (ix2 p q)) 0) k)
    refine congrArg _ (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  · show V c main_v25 (((cfg0.win 1).blk t).view.emb (ix2 p (0 : Fin 1))) = V c main_v25 (ix2 ((((cfg0.win 4).blk t).view.emb (ix2 p q)) 0) (0 : Fin 1))
    refine congrArg _ (funext fun a => Fin.ext ?_)
    match a with
    | ⟨0, _⟩ => show win0_1.index t (0 : Fin 2) * 5000 + 1 * p.val = win0_4.index t (0 : Fin 2) * 5000 + 1 * p.val; omega
    | ⟨1, _⟩ => show win0_1.index t (1 : Fin 2) * 1 + 1 * 0 = 0; omega
  · intro k
    show V c main_arg3 (((cfg0.win 2).blk t).view.emb (ix2 k q)) = V c main_arg3 (ix2 k ((((cfg0.win 4).blk t).view.emb (ix2 p q)) 1))
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_4.index t (1 : Fin 2) * 128 + 1 * q.val; omega
  · show V c main_v26 (((cfg0.win 3).blk t).view.emb (ix2 (0 : Fin 1) q)) = V c main_v26 (ix2 (0 : Fin 1) ((((cfg0.win 4).blk t).view.emb (ix2 p q)) 1))
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = win0_4.index t (1 : Fin 2) * 128 + 1 * q.val; omega

/-- An index of the array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v27).slice (win0_4.rect t)).set ↔ _
  rw [View.set_slice_whole, Rect.mem_set_unit]
  exact Iff.rfl

/-- Every index of the array is in the block of the point its row falls in. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the region: the layer of the operand arrays as the region finds them. -/
theorem final (c : Dev nD) :
    (dat0 V c).arrAt 4 cfg0.N = Cert.Gcn.layerK (V c main_v24) (V c main_v25) (V c main_arg3) (V c main_v26) :=
  (dat0 V c).arrAt_eq_of_cover 4 (Cert.Gcn.layerK (V c main_v24) (V c main_v25) (V c main_arg3) (V c main_v26))
    (fun t _ => flushed_eq V c t) cover

end Cert.KernelIdeal.Blocks0

end
-- ==== Proof.Pay1.lean ====
/-
  What one grid point of the dense kernel of region 1 stores, read at an index: the block of the layer it covers.
-/
import proofs.«164779_j26809185861707_1_alg».proof.Proof.Gen.KernelIdeal.Skeleton
import proofs.«164779_j26809185861707_1_alg».proof.Proof.Spec
import proofs.«164779_j26809185861707_1_alg».proof.Proof.LibDotFormats
import proofs.«164779_j26809185861707_1_alg».proof.Proof.LibColumn
import Idealize.ShloMosaic.Lib.ValueLayout

noncomputable section

namespace Cert.KernelIdeal.Pay1

open Cert.KernelIdeal Cert.KernelIdeal.Gen Idealize.ShloMosaic Idealize.ShloMosaic.ValueIdx
open scoped BigOperators

/-- Region 1's stored block at `(p, q)`: the bf16 truncations are the identity on the extended reals, the block product
    into the zero accumulator is the sum over `k` of its operands at `(p, k)` and `(k, q)`, the spread column reads the
    scale at `(p, 0)` and the spread row the bias at `(0, q)`. Stated against the layer at a global row `P` and column
    `Q`, given that the four blocks read the four arrays there. -/
theorem pay1_at (a : FVec Ideal Cert.Gcn.SNxD .f32) (ndcol : FVec Ideal Cert.Gcn.SNx1 .f32) (W : FVec Ideal Cert.Gcn.SDxD .f32)
    (brow : FVec Ideal Cert.Gcn.S1xD .f32)
    (x0 : Vec Ideal S5000x128 .f32) (x1 : Vec Ideal S5000x1 .f32) (x2 : Vec Ideal S128x128 .f32) (x3 : Vec Ideal S1x128 .f32)
    (p : Fin 5000) (q : Fin 128) (P : Fin 100000) (Q : Fin 128)
    (h0 : ∀ k : Fin 128, x0 (ix2 p k) = a (ix2 P k)) (h1 : x1 (ix2 p (0 : Fin 1)) = ndcol (ix2 P (0 : Fin 1)))
    (h2 : ∀ k : Fin 128, x2 (ix2 k q) = W (ix2 k Q)) (h3 : x3 (ix2 (0 : Fin 1) q) = brow (ix2 (0 : Fin 1) Q)) :
    k1_pay1 (F := Ideal) x0 x1 x2 x3 (ix2 p q) = Cert.Gcn.layerAt a ndcol W brow P Q := by
  unfold k1_pay1 Cert.Gcn.layerAt
  simp only [matmul, shapeCast_self]
  rw [maximumf_apply, addf_apply, broadcast_apply,
    Cert.LibDotFormats.matmul_cols_zero_apply dot_S5000x128_S128x128_S5000x128_1_0_0_1_n_n rfl rfl rfl rfl rfl rfl,
    broadcastTo_1b_ab_apply, h3]
  refine congrArg (fun s => max (s + brow (ix2 (0 : Fin 1) Q)) (Ideal.ofBits .f32 0x00000000#32)) (Finset.sum_congr rfl fun k _ => ?_)
  rw [truncf_apply, truncf_apply, mulf_apply, Cert.LibColumn.broadcastTo_a1_ab_apply, h0 k, h1, h2 k]

end Cert.KernelIdeal.Pay1

end
-- ==== Proof.Blocks1.lean ====
/-
  Region 1's output array after its pipeline, for whatever contents the region is entered at: the layer of its four
  operand arrays. Each of the twenty grid points writes back rows `5000·t … 5000·t + 4999`, all 128 columns; its stored
  block is the layer there because the row block of the aggregate and of the scale column it loaded are those same rows,
  and the weight and bias blocks are the whole arrays. The twenty blocks cover the array.
-/
import proofs.«164779_j26809185861707_1_alg».proof.Proof.Gen.KernelIdeal.Frame
import proofs.«164779_j26809185861707_1_alg».proof.Proof.Pay1

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregate's, the scale's and the output's row block is the point itself, every
    column block is the one there is, and the weight and the bias are fetched whole. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every row block is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

/-- What point `t` writes back is block `t` of the layer of the region's operand arrays. -/
theorem flushed_eq (c : Dev nD) (t : Fin cfg1.N) :
    (dat1 V c).flushed 4 t = ((cfg1.win 4).blk t).view.read (Elt Ideal)
      (Cert.Gcn.layerK (V c main_v52) (V c main_v53) (V c main_arg5) (V c main_v54)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  obtain ⟨e0, e1, e2, e3, e4, e5, e6, e7, e8, e9⟩ := idx_facts t
  funext j
  revert j
  intro (j : S5000x128.Idx)
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (ix2 p q)
    = Cert.Gcn.layerAt (V c main_v52) (V c main_v53) (V c main_arg5) (V c main_v54)
        ((((cfg1.win 4).blk t).view.emb (ix2 p q)) 0) ((((cfg1.win 4).blk t).view.emb (ix2 p q)) 1)
  refine Pay1.pay1_at (V c main_v52) (V c main_v53) (V c main_arg5) (V c main_v54)
    (iblk1 V c 0 t) (iblk1 V c 1 t) (iblk1 V c 2 t) (iblk1 V c 3 t) p q
    ((((cfg1.win 4).blk t).view.emb (ix2 p q)) 0) ((((cfg1.win 4).blk t).view.emb (ix2 p q)) 1) ?_ ?_ ?_ ?_
  · intro k
    show V c main_v52 (((cfg1.win 0).blk t).view.emb (ix2 p k)) = V c main_v52 (ix2 ((((cfg1.win 4).blk t).view.emb (ix2 p q)) 0) k)
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  · show V c main_v53 (((cfg1.win 1).blk t).view.emb (ix2 p (0 : Fin 1))) = V c main_v53 (ix2 ((((cfg1.win 4).blk t).view.emb (ix2 p q)) 0) (0 : Fin 1))
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  · intro k
    show V c main_arg5 (((cfg1.win 2).blk t).view.emb (ix2 k q)) = V c main_arg5 (ix2 k ((((cfg1.win 4).blk t).view.emb (ix2 p q)) 1))
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = win1_4.index t (1 : Fin 2) * 128 + 1 * q.val; omega
  · show V c main_v54 (((cfg1.win 3).blk t).view.emb (ix2 (0 : Fin 1) q)) = V c main_v54 (ix2 (0 : Fin 1) ((((cfg1.win 4).blk t).view.emb (ix2 p q)) 1))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v55).slice (win1_4.rect t)).set ↔ _
  rw [View.set_slice_whole, Rect.mem_set_unit]
  exact Iff.rfl

/-- Every index of the array is in the block of the point its row falls in. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the layer of the operand arrays as the region finds them. -/
theorem final (c : Dev nD) :
    (dat1 V c).arrAt 4 cfg1.N = Cert.Gcn.layerK (V c main_v52) (V c main_v53) (V c main_arg5) (V c main_v54) :=
  (dat1 V c).arrAt_eq_of_cover 4 (Cert.Gcn.layerK (V c main_v52) (V c main_v53) (V c main_arg5) (V c main_v54))
    (fun t _ => flushed_eq V c t) cover

end Cert.KernelIdeal.Blocks1

end
-- ==== Proof.HostSide.lean ====
/-
  The kernel program's host operations, read as the shared whole-array functions.

  Before the first dense region the host computes, from the launch arrays, the aggregate of `x`, the destination scale
  as a column and the first bias as a row, and leaves the first weight alone. Between the regions it does the same over
  the first region's output array, with the second weight and bias. No host operation writes an argument array.
-/
import proofs.«164779_j26809185861707_1_alg».proof.Proof.Gen.KernelIdeal.Frame
import proofs.«164779_j26809185861707_1_alg».proof.Proof.Spec
import Idealize.ShloMosaic.Lib.StableHlo.Run

set_option maxRecDepth 16384
set_option maxHeartbeats 4000000
set_option Elab.async false

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F] (m : (ℓ : Loc nD τ sig) → Buf (Elt F) ℓ) (ρ : Dev nD → PrngReg)

/-! ## Up to the first region -/

theorem W5_arg1 (c : Dev nD) : W5 m ρ c (Proc.devRef .tc main_arg1) = m ((c : Thread nD τ).loc main_arg1) := by
  dsimp only [W5, W4, W3, W2, W1]
  simp only [hostOps0, hostOps0_1, hostOps0_2, hostOps0_3, hostOps0_4]
  after_results_simp <;> rfl

theorem W5_arg2 (c : Dev nD) : W5 m ρ c (Proc.devRef .tc main_arg2) = m ((c : Thread nD τ).loc main_arg2) := by
  dsimp only [W5, W4, W3, W2, W1]
  simp only [hostOps0, hostOps0_1, hostOps0_2, hostOps0_3, hostOps0_4]
  after_results_simp <;> rfl

/-- The first region's aggregate operand. -/
theorem V5_v24 (c : Dev nD) : V5 m ρ c main_v24
    = Cert.Gcn.aggregate (F := F) (m ((c : Thread nD τ).loc main_arg0)) (m ((c : Thread nD τ).loc main_arg1)) (m ((c : Thread nD τ).loc main_arg2)) := by
  show W5 m ρ c (Proc.devRef .tc main_v24) = _
  dsimp only [W5, W4, W3, W2, W1]
  simp only [hostOps0, hostOps0_1, hostOps0_2, hostOps0_3, hostOps0_4]
  after_results_simp <;> rfl

/-- Its scale operand: the destination scale as a column. -/
theorem V5_v25 (c : Dev nD) : V5 m ρ c main_v25
    = shapeCast S100000x1 (Cert.Gcn.invSqrtDeg (F := F) (m ((c : Thread nD τ).loc main_arg2))) shapeCasts_S100000_S100000x1 := by
  show W5 m ρ c (Proc.devRef .tc main_v25) = _
  dsimp only [W5, W4, W3, W2, W1]
  simp only [hostOps0, hostOps0_1, hostOps0_2, hostOps0_3, hostOps0_4]
  after_results_simp <;> rfl

/-- Its bias operand: the first bias as a row. -/
theorem V5_v26 (c : Dev nD) : V5 m ρ c main_v26
    = shapeCast S1x128 (m ((c : Thread nD τ).loc main_arg4)) shapeCasts_S128_S1x128 := by
  show W5 m ρ c (Proc.devRef .tc main_v26) = _
  dsimp only [W5, W4, W3, W2, W1]
  simp only [hostOps0, hostOps0_1, hostOps0_2, hostOps0_3, hostOps0_4]
  after_results_simp <;> rfl

/-- Its weight operand: the first weight as launched. -/
theorem V5_arg3 (c : Dev nD) : V5 m ρ c main_arg3 = m ((c : Thread nD τ).loc main_arg3) := by
  show W5 m ρ c (Proc.devRef .tc main_arg3) = _
  dsimp only [W5, W4, W3, W2, W1]
  simp only [hostOps0, hostOps0_1, hostOps0_2, hostOps0_3, hostOps0_4]
  after_results_simp <;> rfl

/-! ## Across the first region: it writes its output array only -/

theorem W6_arg1 (c : Dev nD) : W6 m ρ c (Proc.devRef .tc main_arg1) = m ((c : Thread nD τ).loc main_arg1) :=
  (W6_of_ne m ρ c main_arg1 (by decide)).trans (W5_arg1 m ρ c)

theorem W6_arg2 (c : Dev nD) : W6 m ρ c (Proc.devRef .tc main_arg2) = m ((c : Thread nD τ).loc main_arg2) :=
  (W6_of_ne m ρ c main_arg2 (by decide)).trans (W5_arg2 m ρ c)

theorem W6_arg5 (c : Dev nD) : W6 m ρ c (Proc.devRef .tc main_arg5) = m ((c : Thread nD τ).loc main_arg5) := by
  refine (W6_of_ne m ρ c main_arg5 (by decide)).trans ?_
  dsimp only [W5, W4, W3, W2, W1]
  simp only [hostOps0, hostOps0_1, hostOps0_2, hostOps0_3, hostOps0_4]
  after_results_simp <;> rfl

theorem W6_arg6 (c : Dev nD) : W6 m ρ c (Proc.devRef .tc main_arg6) = m ((c : Thread nD τ).loc main_arg6) := by
  refine (W6_of_ne m ρ c main_arg6 (by decide)).trans ?_
  dsimp only [W5, W4, W3, W2, W1]
  simp only [hostOps0, hostOps0_1, hostOps0_2, hostOps0_3, hostOps0_4]
  after_results_simp <;> rfl

/-! ## Between the regions -/

/-- The second region's aggregate operand: the aggregate of the first region's output array. -/
theorem V11_v52 (c : Dev nD) : V11 m ρ c main_v52
    = Cert.Gcn.aggregate (F := F) (W6 m ρ c (Proc.devRef .tc main_v27)) (m ((c : Thread nD τ).loc main_arg1)) (m ((c : Thread nD τ).loc main_arg2)) := by
  show W11 m ρ c (Proc.devRef .tc main_v52) = _
  dsimp only [W11, W10, W9, W8, W7]
  simp only [hostOps1, hostOps1_1, hostOps1_2, hostOps1_3, hostOps1_4]
  after_results_simp
  rw [W6_arg1 m ρ c, W6_arg2 m ρ c]
  rfl

theorem V11_v53 (c : Dev nD) : V11 m ρ c main_v53
    = shapeCast S100000x1 (Cert.Gcn.invSqrtDeg (F := F) (m ((c : Thread nD τ).loc main_arg2))) shapeCasts_S100000_S100000x1 := by
  show W11 m ρ c (Proc.devRef .tc main_v53) = _
  dsimp only [W11, W10, W9, W8, W7]
  simp only [hostOps1, hostOps1_1, hostOps1_2, hostOps1_3, hostOps1_4]
  after_results_simp
  rw [W6_arg2 m ρ c]
  rfl

theorem V11_v54 (c : Dev nD) : V11 m ρ c main_v54
    = shapeCast S1x128 (m ((c : Thread nD τ).loc main_arg6)) shapeCasts_S128_S1x128 := by
  show W11 m ρ c (Proc.devRef .tc main_v54) = _
  dsimp only [W11, W10, W9, W8, W7]
  simp only [hostOps1, hostOps1_1, hostOps1_2, hostOps1_3, hostOps1_4]
  after_results_simp
  rw [W6_arg6 m ρ c]
  rfl

theorem V11_arg5 (c : Dev nD) : V11 m ρ c main_arg5 = m ((c : Thread nD τ).loc main_arg5) := by
  show W11 m ρ c (Proc.devRef .tc main_arg5) = _
  dsimp only [W11, W10, W9, W8, W7]
  simp only [hostOps1, hostOps1_1, hostOps1_2, hostOps1_3, hostOps1_4]
  after_results_simp
  exact W6_arg5 m ρ c

end Cert.KernelIdeal.HostSide

end
-- ==== Proof.KernelValue.lean ====
/-
  The kernel program's result array, as the two-layer function of its argument arrays.

  The result buffer is the second region's output array: the layer of that region's operands, which the host computed
  from the first region's output array, itself the layer of the first region's operands, which the host computed from
  the launch arrays. Index by index the blockwise layer is the whole-array one.
-/
import proofs.«164779_j26809185861707_1_alg».proof.Proof.KernelRun
import proofs.«164779_j26809185861707_1_alg».proof.Proof.Blocks0
import proofs.«164779_j26809185861707_1_alg».proof.Proof.Blocks1
import proofs.«164779_j26809185861707_1_alg».proof.Proof.HostSide

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first region's output array: the first layer. -/
theorem first_output (c : Dev nD) : W6 m ρ c (Proc.devRef .tc main_v27)
    = Cert.Gcn.refLayer
        (Cert.Gcn.aggregate (m ((c : Thread nD τ).loc main_arg0)) (m ((c : Thread nD τ).loc main_arg1)) (m ((c : Thread nD τ).loc main_arg2)))
        (Cert.Gcn.invSqrtDeg (m ((c : Thread nD τ).loc main_arg2))) (m ((c : Thread nD τ).loc main_arg3)) (m ((c : Thread nD τ).loc main_arg4)) := by
  refine (W6_arr m ρ c 4).trans ?_
  refine (Blocks0.final (V5 m ρ) c).trans ?_
  rw [HostSide.V5_v24 m ρ c, HostSide.V5_v25 m ρ c, HostSide.V5_arg3 m ρ c, HostSide.V5_v26 m ρ c]
  exact (Cert.Gcn.refLayer_eq _ _ _ _ _ _).symm

/-- The result array: both layers. -/
theorem result (c : Dev nD) : W12 m ρ c (Proc.devRef .tc main_v55) = Cert.Gcn.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) := by
  refine (W12_arr m ρ c 4).trans ?_
  refine (Blocks1.final (V11 m ρ) c).trans ?_
  rw [HostSide.V11_v52 m ρ c, HostSide.V11_v53 m ρ c, HostSide.V11_arg5 m ρ c, HostSide.V11_v54 m ρ c, first_output m ρ c]
  exact (Cert.Gcn.refLayer_eq _ _ _ _ _ _).symm

/-- Every weakly fair execution ends with the result buffer at the two-layer function of the arguments, which end
    as launched. -/
theorem run : θ_run (defs (F := Ideal)) (onTc (τ := τ) (main (F := Ideal))) ⟨m, fun _ => 0, ρ⟩ (fun r => ∀ c : Dev nD,
      r.2.mem ((c.tc : Thread nD τ).loc main_v55) = Cert.Gcn.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c => ⟨(h c).1.trans (result m ρ c), (h c).2⟩) (Named.run_named (F := Ideal) m ρ)

end Cert.KernelIdeal.KValue

end
-- ==== Proof.RefSide.lean ====
/-
  The reference program's result, as the two-layer function of its argument arrays: its operations, composed, are
  literally the aggregate, the destination scale and the whole-array layer, twice.
-/
import proofs.«164779_j26809185861707_1_alg».proof.Proof.Gen.ReferenceIdeal.Run
import proofs.«164779_j26809185861707_1_alg».proof.Proof.Spec

set_option maxRecDepth 16384
set_option maxHeartbeats 4000000

noncomputable section

namespace Cert.ReferenceIdeal.RefValue

open Idealize.ShloMosaic Idealize.ShloMosaic.TcCoe Idealize.SL.Sem

theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v65 (F := Ideal) m c = Cert.Gcn.twoLayers
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6)) := by
  unfold Cert.ReferenceIdeal.Value.res_main_v65
  rfl

end Cert.ReferenceIdeal.RefValue

end
-- ==== Proof.lean ====
/-
  Two graph-convolution layers over `N = 100000` nodes, `E = 800000` edges and `D = 128` features, the dense half of each
  layer as a pipelined kernel over twenty row blocks, against the same two layers as whole-array operations.

  In both programs a layer first aggregates: the rows of its input are scaled by the inverse square root of the clipped
  out-degree, one row per edge is gathered at the edge's source and added into the row of the edge's destination. Both
  programs do this with the same host operations on the same arrays, so it is carried as one function that is never
  opened. The layer then scales row `p` of the aggregate by the destination scale of `p`, multiplies by the weight, adds
  the bias and clamps at zero: entry `(p, q)` is `max (∑ k, (a (p, k) · nd p) · W (k, q) + b q) 0`. The reference does this
  on whole arrays. The kernel does it for rows `5000·t … 5000·t + 4999` at grid point `t`, with its operands truncated to
  bfloat16 before a block product into a zero accumulator; on the extended reals a truncation is the identity and that
  product is the same sum over `k`, so each stored block is the layer's block, and the twenty blocks cover the array.
  No finiteness is used: the two sides are the same expression at every index.

  The three runs: both kernel programs' frames are the generated ones; the reference's is its generated run; the kernel's
  run with its result named is the generated launch read back at the result buffer as well.
-/
import proofs.«164779_j26809185861707_1_alg».proof.Defs
import proofs.«164779_j26809185861707_1_alg».proof.Proof.Gen.Kernel
import proofs.«164779_j26809185861707_1_alg».proof.Proof.Gen.Kernel.Frame
import proofs.«164779_j26809185861707_1_alg».proof.Proof.Gen.KernelIdeal
import proofs.«164779_j26809185861707_1_alg».proof.Proof.Gen.KernelIdeal.Frame
import proofs.«164779_j26809185861707_1_alg».proof.Proof.Gen.ReferenceIdeal
import proofs.«164779_j26809185861707_1_alg».proof.Proof.Gen.ReferenceIdeal.Run
import proofs.«164779_j26809185861707_1_alg».proof.Proof.Gen.Pre_finite_inputs
import proofs.«164779_j26809185861707_1_alg».proof.Proof.KernelValue
import proofs.«164779_j26809185861707_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the two-layer function of the arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
